-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x256 : Shape := ⟨2, ![2048, 256]⟩
abbrev S256x512 : Shape := ⟨2, ![256, 512]⟩
abbrev S_ : Shape := ⟨0, ![]⟩

class Facts : Prop where
  bcast_S_S2048x256 : S_.BroadcastsInDim S2048x256 (![] : Fin 0 → Fin S2048x256.rank)
  reducesTo_S2048x256_S_d0_1 : S2048x256.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_

variable [Facts]

def fn {F : FTy → Type} [FloatOps F] (main_arg0 : FVec F S2048x256 .f32) (main_arg1 : FVec F S256x512 .f32) : IVec S_ 1 :=
  let main_v0 : FVec F S2048x256 .f32 := Host.absf main_arg0
  let main_cst : FVec F S_ .f32 := constant S_ .f32 0x7F800000#32
  let main_v1 : FVec F S2048x256 .f32 := broadcastInDim S2048x256 ![] bcast_S_S2048x256 main_cst
  let main_v2 : IVec S2048x256 1 := cmpf .olt main_v0 main_v1
  let main_c : IVec S_ 1 := constantI S_ 1 1#1
  let main_v3 : IVec S_ 1 := (fun x v => Host.reduce IntOp.andi x v reducesTo_S2048x256_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  main_v8
-- ==== Kernel.lean ====
abbrev S2048x256 : Shape := ⟨2, ![2048, 256]⟩
abbrev S256x512 : Shape := ⟨2, ![256, 512]⟩
abbrev S2048x512 : Shape := ⟨2, ![2048, 512]⟩
abbrev S256x256 : Shape := ⟨2, ![256, 256]⟩
abbrev S256 : Shape := ⟨1, ![256]⟩
abbrev S256x1 : Shape := ⟨2, ![256, 1]⟩
abbrev S512 : Shape := ⟨1, ![512]⟩
abbrev S1x512 : Shape := ⟨2, ![1, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x256, .f32⟩
  | .hbm, ⟨1, _⟩ => ⟨S256x512, .f32⟩
  | .hbm, ⟨2, _⟩ => ⟨S2048x512, .f32⟩
  | .local _ .vmem, ⟨0, _⟩ => ⟨S256x256, .f32⟩
  | .local _ .vmem, ⟨1, _⟩ => ⟨S256x256, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S256x256_S256x256_0_0 : ∀ a, (![0, 0] : Fin 2 → Nat) a + S256x256.size a ≤ S256x256.size a
  h_S256x256 : 0 < S256x256.numel
  inb_S256x512_S256x512_0_0 : ∀ a, (![0, 0] : Fin 2 → Nat) a + S256x512.size a ≤ S256x512.size a
  h_S256x512 : 0 < S256x512.numel
  reduces_S256x256_S256 : S256x256.Reduces [1] S256
  shapeCasts_S256_S256x1 : S256.ShapeCasts S256x1
  reduces_S256x512_S512 : S256x512.Reduces [0] S512
  shapeCasts_S512_S1x512 : S512.ShapeCasts S1x512
  bitsLt_bf16_f32 : FTy.bits .bf16 < FTy.bits .f32
  broadcasts_S256x1_S256x512 : S256x1.Broadcasts S256x512
  broadcasts_S1x512_S256x512 : S1x512.Broadcasts S256x512
  dot_S256x256_S256x512_S256x512_1_0_0_1_n_n_wf : DotDims.WF S256x256 S256x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S2048x256.size a
  hwx0_0 : ∀ i : grid0.Coords, EltTy.bits .f32 = 32 ∨ (Rect.block (s := S2048x256) S256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S2048x512.size a
  hwx0_2 : ∀ i : grid0.Coords, EltTy.bits .f32 = 32 ∨ (Rect.block (s := S2048x512) S256x512.size (cc0_transform_2 i) (hinb0_2 i)).WholeWords (EltTy.packing .f32)

variable [Facts₀]

def dot_S256x256_S256x512_S256x512_1_0_0_1_n_n : DotDims S256x256 S256x512 S256x512 where
  lhsContracting := [1]
  rhsContracting := [0]
  lhsNonContracting := [0]
  rhsNonContracting := [1]
  lhsBatch := []
  rhsBatch := []
  wf := dot_S256x256_S256x512_S256x512_1_0_0_1_n_n_wf

abbrev win0_0 : Pipeline.Window sig grid0 :=
  Pipeline.Window.ofSpec (Memref.whole main_arg0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x256 : Shape := ⟨2, ![2048, 256]⟩
abbrev S256x512 : Shape := ⟨2, ![256, 512]⟩
abbrev S2048x256x1 : Shape := ⟨3, ![2048, 256, 1]⟩
abbrev S1x256x512 : Shape := ⟨3, ![1, 256, 512]⟩
abbrev S2048x256x512 : Shape := ⟨3, ![2048, 256, 512]⟩
abbrev S_ : Shape := ⟨0, ![]⟩
abbrev S2048x512 : Shape := ⟨2, ![2048, 512]⟩

abbrev nBuf : Space → Nat
  | .hbm => 14
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S256x512, .f32⟩
  | .hbm, ⟨2, _⟩ => ⟨S2048x256x1, .f32⟩
  | .hbm, ⟨3, _⟩ => ⟨S1x256x512, .f32⟩
  | .hbm, ⟨4, _⟩ => ⟨S2048x256x512, .f32⟩
  | .hbm, ⟨5, _⟩ => ⟨S2048x256x512, .f32⟩
  | .hbm, ⟨6, _⟩ => ⟨S2048x256x512, .f32⟩
  | .hbm, ⟨7, _⟩ => ⟨S2048x256x512, .f32⟩
  | .hbm, ⟨8, _⟩ => ⟨S_, .f32⟩
  | .hbm, ⟨9, _⟩ => ⟨S2048x512, .f32⟩
  | .hbm, ⟨10, _⟩ => ⟨S_, .f32⟩
  | .hbm, ⟨11, _⟩ => ⟨S2048x512, .f32⟩
  | .hbm, ⟨12, _⟩ => ⟨S2048x512, .f32⟩
  | .hbm, ⟨13, _⟩ => ⟨S2048x512, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  bcast_S2048x256_S2048x256x1_0_1 : S2048x256.BroadcastsInDim S2048x256x1 (![0, 1] : Fin 2 → Fin S2048x256x1.rank)
  bcast_S256x512_S1x256x512_1_2 : S256x512.BroadcastsInDim S1x256x512 (![1, 2] : Fin 2 → Fin S1x256x512.rank)
  bcast_S2048x256x1_S2048x256x512_0_1_2 : S2048x256x1.BroadcastsInDim S2048x256x512 (![0, 1, 2] : Fin 3 → Fin S2048x256x512.rank)
  bcast_S1x256x512_S2048x256x512_0_1_2 : S1x256x512.BroadcastsInDim S2048x256x512 (![0, 1, 2] : Fin 3 → Fin S2048x256x512.rank)
  reducesTo_S2048x256x512_S2048x512_d1 : S2048x256x512.ReducesTo [1] S2048x512
  h_S_ : 0 < S_.numel
  bcast_S_S2048x512 : S_.BroadcastsInDim S2048x512 (![] : Fin 0 → Fin S2048x512.rank)

variable [Facts₀]

class Facts : Prop extends Facts₀ where

variable [Facts]
-- ==== Proof.DistLaw.lean ====
/-
  The squared distance between two real vectors, expanded.

  For real vectors x and w over a finite index set,
      sum_k (x_k - w_k)^2  =  (sum_k x_k^2 + sum_k w_k^2) - 2 * sum_k x_k * w_k .
  On the extended reals the identity needs every entry to be a real number (the expansion distributes a product over
  a difference, which fails at an infinity), so it is stated for entries that are coercions of reals: both sides are
  then coercions of real numbers, and the identity is the real one.  Also here: the two float patterns the kernel
  spells and the reference does not (the zero a sum starts from is shared, the factor two is the kernel's alone).
-/
import Idealize.ShloMosaic.PureOps.Ideal
import Idealize.ShloMosaic.Lib.ValueIdx

noncomputable section

open scoped BigOperators

namespace Cert.DistLaw

open Idealize.ShloMosaic Idealize.ShloMosaic.ValueIdx

/-- A finite sum of reals read in the extended reals is the sum of the readings. -/
theorem coe_sum {ι : Type} (s : Finset ι) (f : ι → ℝ) :
    (∑ k ∈ s, ((f k : ℝ) : EReal)) = ((∑ k ∈ s, f k : ℝ) : EReal) := by
  classical
  refine Finset.induction_on s (by simp) ?_
  intro a s ha ih
  rw [Finset.sum_insert ha, Finset.sum_insert ha, ih, EReal.coe_add]

/-- The real identity: the squared distance is the two squared norms less twice the inner product. -/
theorem sq_dist_real {ι : Type} [Fintype ι] (x w : ι → ℝ) :
    ∑ k, (x k - w k) * (x k - w k) = (∑ k, x k * x k + ∑ k, w k * w k) - 2 * ∑ k, x k * w k := by
  rw [Finset.mul_sum, ← Finset.sum_add_distrib, ← Finset.sum_sub_distrib]
  exact Finset.sum_congr rfl fun k _ => by ring

/-- The same on the extended reals, for entries that are real numbers; the sum on the left starts from zero, as the
    host's reduction does. -/
theorem sq_dist_expand {ι : Type} [Fintype ι] (x w : ι → ℝ) :
    (0 : EReal) + ∑ k, (((x k : ℝ) : EReal) - ((w k : ℝ) : EReal)) * (((x k : ℝ) : EReal) - ((w k : ℝ) : EReal))
      = ((∑ k, ((x k : ℝ) : EReal) * ((x k : ℝ) : EReal)) + ∑ k, ((w k : ℝ) : EReal) * ((w k : ℝ) : EReal))
          - ((2 : ℝ) : EReal) * ∑ k, ((x k : ℝ) : EReal) * ((w k : ℝ) : EReal) := by
  simp only [← EReal.coe_sub, ← EReal.coe_mul, coe_sum, ← EReal.coe_add, zero_add]
  exact congrArg _ (sq_dist_real x w)

/-- The pattern of +0.0 denotes zero. -/
theorem ofBits_zero : Ideal.ofBits .f32 0x00000000#32 = 0 := by
  simp [Ideal.ofBits, Ideal.ieee]

/-- The pattern of 2.0 denotes the real number two. -/
theorem ofBits_two : Ideal.ofBits .f32 0x40000000#32 = ((2 : ℝ) : EReal) := by
  simp [Ideal.ofBits, Ideal.ieee, -EReal.coe_mul]; norm_num

/-! ## The two arrangements of the clamped distance, entry by entry -/

/-- The expanded arrangement at (p, q): the squared norm of row p of x plus the squared norm of column q of w, less
    twice their inner product, clamped below by eps, under the square root. -/
def expandedEntry (x : (⟨2, ![2048, 256]⟩ : Shape).Idx → EReal) (w : (⟨2, ![256, 512]⟩ : Shape).Idx → EReal)
    (p : Fin 2048) (q : Fin 512) : EReal :=
  Ideal.sqrt (max (((∑ k : Fin 256, x (ix2 p k) * x (ix2 p k)) + ∑ k : Fin 256, w (ix2 k q) * w (ix2 k q))
      - Ideal.ofBits .f32 0x40000000#32 * ∑ k : Fin 256, x (ix2 p k) * w (ix2 k q))
    (Ideal.ofBits .f32 0x33D6BF95#32))

/-- The direct arrangement at (p, q): the sum from zero of the squared differences between row p of x and column q
    of w, clamped below by eps, under the square root. -/
def directEntry (x : (⟨2, ![2048, 256]⟩ : Shape).Idx → EReal) (w : (⟨2, ![256, 512]⟩ : Shape).Idx → EReal)
    (p : Fin 2048) (q : Fin 512) : EReal :=
  Ideal.sqrt (max (Ideal.ofBits .f32 0x00000000#32
      + ∑ k : Fin 256, (x (ix2 p k) - w (ix2 k q)) * (x (ix2 p k) - w (ix2 k q)))
    (Ideal.ofBits .f32 0x33D6BF95#32))

/-- Where every entry of x and of w is a real number the two arrangements agree: under the clamp and the root both
    hold the same real number, by the expansion of the squared distance. -/
theorem directEntry_eq_expandedEntry (x : (⟨2, ![2048, 256]⟩ : Shape).Idx → EReal)
    (w : (⟨2, ![256, 512]⟩ : Shape).Idx → EReal) (hx : ∀ i, ∃ r : ℝ, x i = (r : EReal))
    (hw : ∀ i, ∃ r : ℝ, w i = (r : EReal)) (p : Fin 2048) (q : Fin 512) :
    directEntry x w p q = expandedEntry x w p q := by
  choose xr hxr using hx
  choose wr hwr using hw
  have key := sq_dist_expand (fun k : Fin 256 => xr (ix2 p k)) (fun k : Fin 256 => wr (ix2 k q))
  unfold directEntry expandedEntry
  simp only [hxr, hwr]
  rw [ofBits_zero, ofBits_two]
  exact congrArg (fun s => Ideal.sqrt (max s (Ideal.ofBits .f32 0x33D6BF95#32))) key

end Cert.DistLaw

end
-- ==== Proof.Finite.lean ====
/-
  What the precondition gives: every entry of both argument arrays is a real number.

  The precondition is the conjunction of two "all" reductions, one per argument, of the entrywise test |v| < +inf.
  A conjunction of one-bit words that is 1 has both words 1; an "all" reduction that is 1 had a 1 at every entry;
  and an extended real whose absolute value max(v, -v) is strictly below the top element is neither infinity, so it
  is the coercion of a real number.
-/
import proofs.«149434_j38817914422094_1_alg».proof.Pre_finite_inputs
import proofs.«149434_j38817914422094_1_alg».proof.Proof.Gen.Pre_finite_inputs
import Idealize.ShloMosaic.PureOps.Ideal
import Idealize.ShloMosaic.Lib.ReduceAll
import Idealize.ShloMosaic.Lib.Affine

noncomputable section

namespace Cert.FiniteInputs

open Idealize.ShloMosaic Cert.Pre_finite_inputs

/-- The scalar shape has one index. -/
instance : Subsingleton S_.Idx := ⟨fun a b => funext fun d => d.elim0⟩

/-- The pattern of +inf denotes the top of the extended reals. -/
theorem ofBits_inf : Ideal.ofBits .f32 0x7F800000#32 = ⊤ := by
  simp [Ideal.ofBits, Ideal.ieee]

/-- An extended real whose absolute value compares strictly below +inf is a real number. -/
theorem real_of_lt_inf (v : EReal)
    (h : Ideal.cmp .olt (max v (-v)) (Ideal.ofBits .f32 0x7F800000#32) = 1#1) : ∃ r : ℝ, v = (r : EReal) := by
  rw [ofBits_inf] at h
  have e : Ideal.cmp .olt (max v (-v)) ⊤ = BitVec.ofBool (decide (max v (-v) < ⊤)) := rfl
  rw [e] at h
  have hlt : max v (-v) < ⊤ := by
    by_contra hn
    rw [decide_eq_false hn] at h
    exact absurd h (by decide)
  induction v using EReal.rec with
  | bot => simp at hlt
  | coe r => exact ⟨r, rfl⟩
  | top => simp at hlt

/-- Under the precondition every entry of x and every entry of w is a real number. -/
theorem entries_real (x : FVec Ideal S2048x256 .f32) (w : FVec Ideal S256x512 .f32)
    (h : fn (F := Ideal) x w = fun _ => 1#1) :
    (∀ i, ∃ r : ℝ, x i = (r : EReal)) ∧ (∀ i, ∃ r : ℝ, w i = (r : EReal)) := by
  have h0 := congrFun h (fun a => a.elim0)
  dsimp only [fn] at h0
  obtain ⟨hx, hw⟩ := IntOp.andi_eq_one.mp h0
  exact ⟨fun i => real_of_lt_inf (x i) (Host.reduce_andi_all _ _ _ _ _ hx i),
    fun i => real_of_lt_inf (w i) (Host.reduce_andi_all _ _ _ _ _ hw i)⟩

end Cert.FiniteInputs

end
-- ==== Proof.LibMatmul.lean ====
/-
  A rows-by-columns product read at an entry (a general lemma: nothing here depends on a program).

  For the dimension numbers "contract the left operand's axis 1 with the right operand's axis 0, no batch axis" over
  operands [A, K] and [K, C], the contraction at entry (a, c), at the ideal values, is the sum over k < K of
  lhs[a, k] · rhs[k, c]; so is a matrix-unit product into a zero accumulator, and so is the host's dot_general.
-/
import Idealize.ShloMosaic.Lib.ValueIdx
import Idealize.ShloMosaic.PureOps.Ideal.Laws

noncomputable section

namespace Cert.Lib.Matmul

open Idealize.ShloMosaic Idealize.ShloMosaic.ValueIdx

variable {A K C : Nat}

/-- The left operand's index keeps the result's row. -/
theorem lhs0 (j : (⟨2, ![A, C]⟩ : Shape).Idx) (q : (DotDims.plain A K C).contr.Idx) :
    ((DotDims.plain A K C).lhsIdx j q 0).val = (j 0).val := by
  unfold DotDims.lhsIdx
  rw [dif_neg (show ¬(0 : Fin 2) ∈ (DotDims.plain A K C).lhsBatch from List.not_mem_nil),
    dif_pos (show (0 : Fin 2) ∈ (DotDims.plain A K C).lhsNonContracting from List.mem_singleton.mpr rfl)]
  rfl

/-- The left operand's column is the contraction coordinate. -/
theorem lhs1 (j : (⟨2, ![A, C]⟩ : Shape).Idx) (q : (DotDims.plain A K C).contr.Idx) :
    ((DotDims.plain A K C).lhsIdx j q 1).val = (q ⟨0, Nat.one_pos⟩).val :=
  (DotDims.plain A K C).lhsIdx_val_of_single rfl j q

/-- The right operand's row is the contraction coordinate. -/
theorem rhs0 (j : (⟨2, ![A, C]⟩ : Shape).Idx) (q : (DotDims.plain A K C).contr.Idx) :
    ((DotDims.plain A K C).rhsIdx j q 0).val = (q ⟨0, Nat.one_pos⟩).val :=
  (DotDims.plain A K C).rhsIdx_val_of_single rfl j q

/-- The right operand's index keeps the result's column. -/
theorem rhs1 (j : (⟨2, ![A, C]⟩ : Shape).Idx) (q : (DotDims.plain A K C).contr.Idx) :
    ((DotDims.plain A K C).rhsIdx j q 1).val = (j 1).val := by
  unfold DotDims.rhsIdx
  rw [dif_neg (show ¬(1 : Fin 2) ∈ (DotDims.plain A K C).rhsBatch from List.not_mem_nil),
    dif_pos (show (1 : Fin 2) ∈ (DotDims.plain A K C).rhsNonContracting from List.mem_singleton.mpr rfl)]
  rfl

/-- The contraction at entry (a, c) is the sum over the K products lhs[a, k] · rhs[k, c]. -/
theorem contr_sum (lhs : (⟨2, ![A, K]⟩ : Shape).Idx → EReal) (rhs : (⟨2, ![K, C]⟩ : Shape).Idx → EReal)
    (a : Fin A) (c : Fin C) :
    ∑ q : (DotDims.plain A K C).contr.Idx,
        lhs ((DotDims.plain A K C).lhsIdx (ix2 a c) q) * rhs ((DotDims.plain A K C).rhsIdx (ix2 a c) q)
      = ∑ k : Fin K, lhs (ix2 a k) * rhs (ix2 k c) := by
  rw [← Equiv.sum_comp (contrEquiv1 (DotDims.plain A K C) K rfl rfl).symm]
  refine Finset.sum_congr rfl fun k _ => ?_
  have hk := contrEquiv1_symm_val (DotDims.plain A K C) K rfl rfl k
  have el : (DotDims.plain A K C).lhsIdx (ix2 a c) ((contrEquiv1 (DotDims.plain A K C) K rfl rfl).symm k)
      = ix2 a k := funext fun x => Fin.ext (by
    match x with
    | ⟨0, _⟩ => exact lhs0 _ _
    | ⟨1, _⟩ => exact (lhs1 _ _).trans hk)
  have er : (DotDims.plain A K C).rhsIdx (ix2 a c) ((contrEquiv1 (DotDims.plain A K C) K rfl rfl).symm k)
      = ix2 k c := funext fun x => Fin.ext (by
    match x with
    | ⟨0, _⟩ => exact (rhs0 _ _).trans hk
    | ⟨1, _⟩ => exact rhs1 _ _)
  rw [el, er]

/-- A matrix-unit product into a zero accumulator, at entry (a, c). -/
theorem matmul_zero_apply {φ₁ φ₂ : FTy} (prec : Option ContractPrecision)
    (lhs : FVec Ideal ⟨2, ![A, K]⟩ φ₁) (rhs : FVec Ideal ⟨2, ![K, C]⟩ φ₂) (a : Fin A) (c : Fin C) :
    FloatOps.matmul (DotDims.plain A K C) prec lhs rhs (constant ⟨2, ![A, C]⟩ .f32 0x00000000#32) (ix2 a c)
      = ∑ k : Fin K, (lhs (ix2 a k) : EReal) * (rhs (ix2 k c) : EReal) := by
  rw [Ideal.matmul_constant_zero_apply]
  exact contr_sum lhs rhs a c

/-- The host's dot_general, at entry (a, c). -/
theorem dotGeneral_apply {φ₁ φ₂ : FTy} (prec : Option ContractPrecision) (sched : HostSchedule)
    (lhs : FVec Ideal ⟨2, ![A, K]⟩ φ₁) (rhs : FVec Ideal ⟨2, ![K, C]⟩ φ₂) (a : Fin A) (c : Fin C) :
    FloatOps.dotGeneral (DotDims.plain A K C) prec sched lhs rhs (ix2 a c)
      = ∑ k : Fin K, (lhs (ix2 a k) : EReal) * (rhs (ix2 k c) : EReal) := by
  rw [Ideal.dotGeneral_apply]
  exact contr_sum lhs rhs a c

end Cert.Lib.Matmul

end
-- ==== Proof.LibLayout.lean ====
/-
  A row vector broadcast along the rows, read at an entry (a general lemma: nothing here depends on a program).

  A vector of B entries, shape-cast to one row [1, B] and broadcast to A rows [A, B], holds at (p, q) the vector's
  entry q.
-/
import Idealize.ShloMosaic.Lib.ValueIdx
import Idealize.ShloMosaic.Lib.Pipeline.Value

noncomputable section

namespace Cert.Lib.Layout

open Idealize.ShloMosaic Idealize.ShloMosaic.ValueIdx

/-- The one row [1, B] of a vector, at (0, q), is the vector at q. -/
theorem rowCast_apply {α : Type} {B : Nat} (v : (⟨1, ![B]⟩ : Shape).Idx → α)
    (h1 : (⟨1, ![B]⟩ : Shape).ShapeCasts ⟨2, ![1, B]⟩) (z : Fin 1) (q : Fin B) :
    shapeCast ⟨2, ![1, B]⟩ v h1 (ix2 z q) = v (ix1 q) := by
  refine (shapeCast_addUnit_apply (n := 1) ![B] v h1 (ix2 z q)).trans (congrArg v ?_)
  funext a
  match a with
  | ⟨0, _⟩ => rfl

/-- The row broadcast to A rows, at (p, q), is the vector at q. -/
theorem bcastRow_apply {α : Type} {A B : Nat} (v : (⟨1, ![B]⟩ : Shape).Idx → α)
    (h1 : (⟨1, ![B]⟩ : Shape).ShapeCasts ⟨2, ![1, B]⟩) (h2 : (⟨2, ![1, B]⟩ : Shape).Broadcasts ⟨2, ![A, B]⟩)
    (p : Fin A) (q : Fin B) :
    broadcastTo ⟨2, ![A, B]⟩ (shapeCast ⟨2, ![1, B]⟩ v h1) h2 (ix2 p q) = v (ix1 q) := by
  refine (broadcastTo_apply (shapeCast ⟨2, ![1, B]⟩ v h1) h2 (ix2 p q) (ix2 (0 : Fin 1) q) ?_).trans
    (rowCast_apply v h1 0 q)
  intro a
  match a with
  | ⟨0, _⟩ => simp
  | ⟨1, _⟩ =>
    show q.val = if B = 1 then 0 else q.val
    split
    · have := q.isLt; omega
    · rfl

end Cert.Lib.Layout

end
-- ==== Proof.LibLayoutCol.lean ====
/-
  A column vector broadcast along the columns, read at an entry (a general lemma: nothing here depends on a program).

  A vector of A entries, shape-cast to one column [A, 1] and broadcast to B columns [A, B], holds at (p, q) the
  vector's entry p: the row-major position of (p, 0) in [A, 1] is p, and a broadcast reads a unit axis at 0.
-/
import Idealize.ShloMosaic.Lib.ValueIdx
import Idealize.ShloMosaic.Lib.Pipeline.Value

noncomputable section

namespace Cert.Lib.LayoutCol

open Idealize.ShloMosaic Idealize.ShloMosaic.ValueIdx

/-- The one column [A, 1] of a vector, at (p, 0), is the vector at p. -/
theorem colCast_apply {α : Type} {A : Nat} (v : (⟨1, ![A]⟩ : Shape).Idx → α)
    (h1 : (⟨1, ![A]⟩ : Shape).ShapeCasts ⟨2, ![A, 1]⟩) (p : Fin A) (z : Fin 1) :
    shapeCast ⟨2, ![A, 1]⟩ v h1 (ix2 p z) = v (ix1 p) := by
  refine shapeCast_apply v h1 (ix2 p z) (ix1 p) ?_
  rw [Shape.rowMajor_val_one, Shape.rowMajor_val_two]
  show p.val = p.val * 1 + z.val
  have := z.isLt
  omega

/-- The column broadcast to B columns, at (p, q), is the vector at p. -/
theorem bcastCol_apply {α : Type} {A B : Nat} (v : (⟨1, ![A]⟩ : Shape).Idx → α)
    (h1 : (⟨1, ![A]⟩ : Shape).ShapeCasts ⟨2, ![A, 1]⟩) (h2 : (⟨2, ![A, 1]⟩ : Shape).Broadcasts ⟨2, ![A, B]⟩)
    (p : Fin A) (q : Fin B) :
    broadcastTo ⟨2, ![A, B]⟩ (shapeCast ⟨2, ![A, 1]⟩ v h1) h2 (ix2 p q) = v (ix1 p) := by
  refine (broadcastTo_apply (shapeCast ⟨2, ![A, 1]⟩ v h1) h2 (ix2 p q) (ix2 p (0 : Fin 1)) ?_).trans
    (colCast_apply v h1 p 0)
  intro a
  match a with
  | ⟨0, _⟩ =>
    show p.val = if A = 1 then 0 else p.val
    split
    · have := p.isLt; omega
    · rfl
  | ⟨1, _⟩ => simp

end Cert.Lib.LayoutCol

end
-- ==== Proof.LibAxisSum.lean ====
/-
  The row sums and the column sums of a matrix, read at an entry (a general lemma: nothing here depends on a program).

  At the ideal values an add-reduction of an [A, K] matrix over its axis 1 holds at p the sum over k < K of the
  matrix at (p, k), and an add-reduction of a [K, C] matrix over its axis 0 holds at q the sum over k < K of the
  matrix at (k, q): the reduced index with the summed coordinate put back on its axis.
-/
import Idealize.ShloMosaic.Lib.ValueIdx
import Idealize.ShloMosaic.PureOps.Ideal.Laws

noncomputable section

open scoped BigOperators

namespace Cert.Lib.AxisSum

open Idealize.ShloMosaic Idealize.ShloMosaic.ValueIdx

/-- The sum along each row: the reduction over axis 1, at p, is the sum over the row's K entries. -/
theorem rowSum_apply {φ : FTy} {A K : Nat} (src : FVec Ideal ⟨2, ![A, K]⟩ φ) (acc : BitVec φ.bits)
    (h : (⟨2, ![A, K]⟩ : Shape).Reduces [1] ⟨1, ![A]⟩) (hφ : FKind.Formats φ) (hacc : acc = FKind.add.neutral φ hφ)
    (p : Fin A) :
    multiReduction .add [1] ⟨1, ![A]⟩ src acc h hφ hacc (ix1 p) = ∑ k : Fin K, (src (ix2 p k) : EReal) := by
  rw [Ideal.multiReduction_add_single]
  refine Finset.sum_congr rfl fun k _ => congrArg src ?_
  funext a
  match a with
  | ⟨0, _⟩ => rfl
  | ⟨1, _⟩ => rfl

/-- The sum down each column: the reduction over axis 0, at q, is the sum over the column's K entries. -/
theorem colSum_apply {φ : FTy} {K C : Nat} (src : FVec Ideal ⟨2, ![K, C]⟩ φ) (acc : BitVec φ.bits)
    (h : (⟨2, ![K, C]⟩ : Shape).Reduces [0] ⟨1, ![C]⟩) (hφ : FKind.Formats φ) (hacc : acc = FKind.add.neutral φ hφ)
    (q : Fin C) :
    multiReduction .add [0] ⟨1, ![C]⟩ src acc h hφ hacc (ix1 q) = ∑ k : Fin K, (src (ix2 k q) : EReal) := by
  rw [Ideal.multiReduction_add_single]
  refine Finset.sum_congr rfl fun k _ => congrArg src ?_
  funext a
  match a with
  | ⟨0, _⟩ => rfl
  | ⟨1, _⟩ => rfl

end Cert.Lib.AxisSum

end
-- ==== Proof.KernelEntry.lean ====
/-
  The kernel body's stored value, read at one entry of the [256, 512] output block.

  From a block x0 of 256 rows of x and the whole of w (x1), the body stores at (p, q)
      sqrt (max ((sum_k x0[p,k]^2 + sum_k x1[k,q]^2) - 2 * sum_k x0[p,k] * x1[k,q], eps)) :
  the row sums of x0 * x0 laid out as a column and repeated along the columns, the column sums of x1 * x1 laid out as a
  row and repeated down the rows, and the matrix product of the two blocks (narrowed to bf16 first, which at the ideal
  values changes nothing) accumulated from zero.
-/
import proofs.«149434_j38817914422094_1_alg».proof.Proof.Gen.KernelIdeal.Skeleton
import proofs.«149434_j38817914422094_1_alg».proof.Proof.LibMatmul
import proofs.«149434_j38817914422094_1_alg».proof.Proof.LibLayout
import proofs.«149434_j38817914422094_1_alg».proof.Proof.LibLayoutCol
import proofs.«149434_j38817914422094_1_alg».proof.Proof.LibAxisSum

noncomputable section

open scoped BigOperators

namespace Cert.KernelIdeal.Entry

open Cert.KernelIdeal Cert.KernelIdeal.Gen
open Idealize.ShloMosaic Idealize.ShloMosaic.ValueIdx

/-- The row sums of squares, as the body lays them out over the block: at (p, q) the sum over row p of x0. -/
theorem rowNorms_apply (x0 : FVec Ideal S256x256 .f32) (p : Fin 256) (q : Fin 512) :
    broadcastTo S256x512 (shapeCast S256x1 (multiReduction (F := Ideal) .add [1] S256 (mulf x0 x0) 0x00000000#32
        reduces_S256x256_S256 (.inl rfl) rfl) shapeCasts_S256_S256x1) broadcasts_S256x1_S256x512 (ix2 p q)
      = ∑ k : Fin 256, (x0 (ix2 p k) : EReal) * (x0 (ix2 p k) : EReal) :=
  (Cert.Lib.LayoutCol.bcastCol_apply _ shapeCasts_S256_S256x1 broadcasts_S256x1_S256x512 p q).trans
    (Cert.Lib.AxisSum.rowSum_apply (mulf x0 x0) 0x00000000#32 reduces_S256x256_S256 (.inl rfl) rfl p)

/-- The column sums of squares, as the body lays them out over the block: at (p, q) the sum down column q of x1. -/
theorem colNorms_apply (x1 : FVec Ideal S256x512 .f32) (p : Fin 256) (q : Fin 512) :
    broadcastTo S256x512 (shapeCast S1x512 (multiReduction (F := Ideal) .add [0] S512 (mulf x1 x1) 0x00000000#32
        reduces_S256x512_S512 (.inl rfl) rfl) shapeCasts_S512_S1x512) broadcasts_S1x512_S256x512 (ix2 p q)
      = ∑ k : Fin 256, (x1 (ix2 k q) : EReal) * (x1 (ix2 k q) : EReal) :=
  (Cert.Lib.Layout.bcastRow_apply _ shapeCasts_S512_S1x512 broadcasts_S1x512_S256x512 p q).trans
    (Cert.Lib.AxisSum.colSum_apply (mulf x1 x1) 0x00000000#32 reduces_S256x512_S512 (.inl rfl) rfl q)

/-- The product of the two narrowed blocks accumulated from zero: at (p, q) the inner product of row p of x0 with
    column q of x1. -/
theorem product_apply (x0 : FVec Ideal S256x256 .f32) (x1 : FVec Ideal S256x512 .f32) (p : Fin 256) (q : Fin 512) :
    matmul (F := Ideal) dot_S256x256_S256x512_S256x512_1_0_0_1_n_n none (truncf .bf16 x0 bitsLt_bf16_f32)
        (truncf .bf16 x1 bitsLt_bf16_f32) (constant (F := Ideal) S256x512 .f32 0x00000000#32) (ix2 p q)
      = ∑ k : Fin 256, (x0 (ix2 p k) : EReal) * (x1 (ix2 k q) : EReal) :=
  Cert.Lib.Matmul.matmul_zero_apply (A := 256) (K := 256) (C := 512) none
    (truncf .bf16 x0 bitsLt_bf16_f32) (truncf .bf16 x1 bitsLt_bf16_f32) p q

/-- The stored value at (p, q). -/
theorem pay_apply (x0 : FVec Ideal S256x256 .f32) (x1 : FVec Ideal S256x512 .f32) (p : Fin 256) (q : Fin 512) :
    k0_pay1 (F := Ideal) x0 x1 (ix2 p q)
      = Ideal.sqrt (max (((∑ k : Fin 256, (x0 (ix2 p k) : EReal) * (x0 (ix2 p k) : EReal))
              + ∑ k : Fin 256, (x1 (ix2 k q) : EReal) * (x1 (ix2 k q) : EReal))
            - Ideal.ofBits .f32 0x40000000#32 * ∑ k : Fin 256, (x0 (ix2 p k) : EReal) * (x1 (ix2 k q) : EReal))
          (Ideal.ofBits .f32 0x33D6BF95#32)) := by
  unfold k0_pay1
  exact congrArg Ideal.sqrt (congrArg₂ max
    (congrArg₂ (· - ·) (congrArg₂ (· + ·) (rowNorms_apply x0 p q) (colNorms_apply x1 p q))
      (congrArg (Ideal.ofBits .f32 0x40000000#32 * ·) (product_apply x0 x1 p q)))
    rfl)

end Cert.KernelIdeal.Entry

end
-- ==== Proof.Blocks.lean ====
/-
  From the eight output blocks to the whole [2048, 512] result array.

  Grid point t stages rows 256 t .. 256 t + 255 of x and the whole of w, and writes back rows 256 t .. 256 t + 255 of
  the result.  Entry (r, q) of that output block depends only on row r of the staged x block and column q of w, that is
  on row 256 t + r of x: so what point t writes back is block t of ONE function of the whole argument arrays, the
  expanded arrangement of the clamped distance.  The eight blocks tile the result (row i lies in block i / 256), so
  after the run the result array is that function.
-/
import proofs.«149434_j38817914422094_1_alg».proof.Proof.Gen.KernelIdeal.Value
import proofs.«149434_j38817914422094_1_alg».proof.Proof.KernelEntry
import proofs.«149434_j38817914422094_1_alg».proof.Proof.DistLaw

noncomputable section

open scoped BigOperators

namespace Cert.KernelIdeal.Whole

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The result array as one function of the whole argument arrays: at (i0, i1) the expanded arrangement of the
    clamped distance between row i0 of x and column i1 of w. -/
def dist (x : S2048x256.Idx → EReal) (w : S256x512.Idx → EReal) : S2048x512.Idx → EReal :=
  fun i => Cert.DistLaw.expandedEntry x w (i 0) (i 1)

/-- The body's stored value at (p, q), from blocks whose row p is row i0 of x and whose column q is column i1 of w, is
    the result function at (i0, i1). -/
theorem pay_eq_dist (x : S2048x256.Idx → EReal) (w : S256x512.Idx → EReal)
    (x0 : FVec Ideal S256x256 .f32) (x1 : FVec Ideal S256x512 .f32) (p : Fin 256) (q : Fin 512) (i : S2048x512.Idx)
    (hx0 : ∀ k : Fin 256, x0 (ix2 p k) = x (ix2 (i 0) k))
    (hx1 : ∀ k : Fin 256, x1 (ix2 k q) = w (ix2 k (i 1))) :
    k0_pay1 (F := Ideal) x0 x1 (ix2 p q) = dist x w i := by
  rw [Cert.KernelIdeal.Entry.pay_apply]
  unfold dist Cert.DistLaw.expandedEntry
  simp only [hx0, hx1]

/-- The printed index maps, decided over the eight grid points: the x window moves down the rows with the output
    window and stays in column block 0; the w window stays at block (0, 0); the output stays in column block 0. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every one of the eight row blocks of the result is some point's. -/
theorem idx_onto : ∀ r : Fin 8, ∃ t : Fin cfg0.N, win0_2.index t = ![r.val, 0] :=
  (by decide +kernel : ∀ r : Fin 8, ∃ t : Fin grid0.N, win0_2.index t = ![r.val, 0])

/-- What point t writes back is block t of the result function of the argument arrays. -/
theorem flushed_eq (c : Dev nD) (t : Fin cfg0.N) :
    (dats m 0 c).flushed 2 t
      = ((cfg0.win 2).blk t).view.read (Elt Ideal) (dist (V m c main_arg0) (V m c main_arg1)) := by
  rw [Value.flushed2]
  unfold out0_2
  rw [View.canon_unit_zero zero_offsets]
  simp only [View.ld_unit_zero (S := S256x256) zero_offsets, View.ld_unit_zero (S := S256x512) zero_offsets]
  obtain ⟨e0, e1, e2, e3, e4⟩ := idx_facts t
  refine funext fun (j : S256x512.Idx) => ?_
  show k0_pay1 (F := Ideal) (iblk m c 0 t) (iblk m c 1 t) j
    = dist (V m c main_arg0) (V m c main_arg1) (((cfg0.win 2).blk t).view.emb j)
  refine (congrArg (k0_pay1 (F := Ideal) (iblk m c 0 t) (iblk m c 1 t)) (eq_ix2 j)).trans ?_
  refine pay_eq_dist _ _ _ _ (j 0) (j 1) _ (fun k => ?_) (fun k => ?_)
  · show V m c main_arg0 (((cfg0.win 0).blk t).view.emb (ix2 (j 0) k))
      = V m c main_arg0 (ix2 ((((cfg0.win 2).blk t).view.emb j) 0) k)
    refine congrArg _ (funext fun a => Fin.ext ?_)
    match a with
    | ⟨0, _⟩ =>
      show win0_0.index t (0 : Fin 2) * 256 + 1 * (j 0).val = win0_2.index t (0 : Fin 2) * 256 + 1 * (j 0).val
      omega
    | ⟨1, _⟩ =>
      show win0_0.index t (1 : Fin 2) * 256 + 1 * k.val = k.val
      omega
  · show V m c main_arg1 (((cfg0.win 1).blk t).view.emb (ix2 k (j 1)))
      = V m c main_arg1 (ix2 k ((((cfg0.win 2).blk t).view.emb j) 1))
    refine congrArg _ (funext fun a => Fin.ext ?_)
    match a with
    | ⟨0, _⟩ =>
      show win0_1.index t (0 : Fin 2) * 256 + 1 * k.val = k.val
      omega
    | ⟨1, _⟩ =>
      show win0_1.index t (1 : Fin 2) * 512 + 1 * (j 1).val = win0_2.index t (1 : Fin 2) * 512 + 1 * (j 1).val
      omega

/-- An index of the result is in point t's block iff each coordinate is in the block's range on its axis. -/
theorem mem_blk (t : Fin cfg0.N) (i : S2048x512.Idx) :
    i ∈ ((cfg0.win 2).blk t).view.set ↔ ∀ a : Fin 2, win0_2.index t a * S256x512.size a ≤ (i a).val
      ∧ (i a).val < win0_2.index t a * S256x512.size a + S256x512.size a := by
  show i ∈ ((View.whole main_v0).slice (win0_2.rect t)).set ↔ _
  rw [View.set_slice_whole, Rect.mem_set_unit]
  exact Iff.rfl

/-- The blocks tile the result: row i0 lies in the block of the point whose row-block index is i0 / 256. -/
theorem cover (i : S2048x512.Idx) :
    ∃ t : Fin cfg0.N, (cfg0.win 2).flush t = true ∧ i ∈ ((cfg0.win 2).blk t).view.set := by
  have hi0 : (i 0).val < 2048 := (i 0).isLt
  have hi1 : (i 1).val < 512 := (i 1).isLt
  obtain ⟨t, ht⟩ := idx_onto ⟨(i 0).val / 256, by omega⟩
  have q0 : win0_2.index t (0 : Fin 2) = (i 0).val / 256 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 256 ≤ (i 0).val ∧ (i 0).val < win0_2.index t (0 : Fin 2) * 256 + 256
    omega
  | ⟨1, _⟩ =>
    show win0_2.index t (1 : Fin 2) * 512 ≤ (i 1).val ∧ (i 1).val < win0_2.index t (1 : Fin 2) * 512 + 512
    omega

/-- The result array after the run is the result function of the argument arrays as launched. -/
theorem final (c : Dev nD) :
    (dats m 0 c).arrAt 2 cfg0.N
      = dist (m ((c : Thread nD τ).loc main_arg0)) (m ((c : Thread nD τ).loc main_arg1)) :=
  (dats m 0 c).arrAt_eq_of_cover 2 (dist (V m c main_arg0) (V m c main_arg1)) (fun t _ => flushed_eq m c t) cover

/-- The kernel's run, read: the result array at the result function of the arguments, the arguments unchanged. -/
theorem run : θ_run defs (onTc (τ := τ) (main (F := Ideal))) ⟨m, fun _ => 0, ρ⟩ fun r => ∀ c : Dev nD,
      r.2.mem ((c : Thread nD τ).loc main_v0)
        = dist (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.RefEntry.lean ====
/-
  The reference's result, read at one entry of the [2048, 512] array.

  The reference repeats x along a new last axis and w along a new first axis to [2048, 256, 512], subtracts, squares,
  sums over the middle axis from zero, clamps below by eps and takes the square root: at (p, q)
      sqrt (max (0 + sum_k (x[p,k] - w[k,q])^2, eps)) .
-/
import proofs.«149434_j38817914422094_1_alg».proof.Proof.Gen.ReferenceIdeal.Read
import Idealize.ShloMosaic.Lib.ValueIdx

noncomputable section

open scoped BigOperators

namespace Cert.ReferenceIdeal.Entry

open Cert.ReferenceIdeal Cert.ReferenceIdeal.Gen Cert.ReferenceIdeal.Read
open Idealize.ShloMosaic Idealize.ShloMosaic.ValueIdx

/-- Through the two broadcasts, entry (p, k, q) of the repeated x is x at (p, k). -/
theorem x_index (p : Fin 2048) (q : Fin 512) (k : Fin 256) :
    idx_main_v0 (idx_main_v2 (idx_main_v6 (ix2 p q) k)) = ix2 p k :=
  funext fun a => Fin.ext (by match a with | ⟨0, _⟩ => rfl | ⟨1, _⟩ => rfl)

/-- Through the two broadcasts, entry (p, k, q) of the repeated w is w at (k, q). -/
theorem w_index (p : Fin 2048) (q : Fin 512) (k : Fin 256) :
    idx_main_v1 (idx_main_v3 (idx_main_v6 (ix2 p q) k)) = ix2 k q :=
  funext fun a => Fin.ext (by match a with | ⟨0, _⟩ => rfl | ⟨1, _⟩ => rfl)

/-- The reference's result at (p, q). -/
theorem ref_apply (x : FVec Ideal S2048x256 .f32) (w : FVec Ideal S256x512 .f32) (p : Fin 2048) (q : Fin 512) :
    val_main_v9 (F := Ideal) x w (ix2 p q)
      = Ideal.sqrt (max (Ideal.ofBits .f32 0x00000000#32
            + ∑ k : Fin 256, ((x (ix2 p k) : EReal) - (w (ix2 k q) : EReal)) * ((x (ix2 p k) : EReal) - (w (ix2 k q) : EReal)))
          (Ideal.ofBits .f32 0x33D6BF95#32)) := by
  rw [val_main_v9_apply, val_main_v8_apply, val_main_v6_apply, val_main_v7_apply, val_main_cst_0_apply,
    val_main_cst_apply]
  simp only [val_main_v5_apply, val_main_v4_apply, val_main_v2_apply, val_main_v3_apply, val_main_v0_apply,
    val_main_v1_apply, x_index, w_index]
  rfl

end Cert.ReferenceIdeal.Entry

end
-- ==== Proof.lean ====
/-
  The clamped Euclidean distance between every row of x (2048 rows of length 256) and every column of w (512 columns
  of length 256): result (p, q) is sqrt (max (sum_k (x[p,k] - w[k,q])^2, eps)).

  The reference computes the sum of squared differences directly.  The kernel expands the square: for each block of
  256 rows of x it takes the rows' squared norms, the squared norms of the columns of w, and the matrix product of the
  block with w (its operands narrowed to bf16, which is the identity on the ideal values), and stores
  sqrt (max ((|x_p|^2 + |w_q|^2) - 2 <x_p, w_q>, eps)).  The two agree wherever the expansion
      sum_k (x_k - w_k)^2 = (sum_k x_k^2 + sum_k w_k^2) - 2 sum_k x_k w_k
  holds, which on the extended reals needs every entry to be a real number: that is what the precondition (all
  inputs finite) gives.  The clamp and the square root are the same functions on both sides and are applied to equal
  arguments.

  The modules: the expansion and the two arrangements entry by entry (Proof/DistLaw.lean); the precondition read as
  "every entry is real" (Proof/Finite.lean); the kernel body's stored value at an entry (Proof/KernelEntry.lean, over
  the general lemmas on row and column sums, on a vector laid out as a row or a column and repeated, and on a
  rows-by-columns product); the eight output blocks assembled into the whole result array (Proof/Blocks.lean); the
  reference's result at an entry (Proof/RefEntry.lean).  The three frames are the generated ones, the reference's being
  its run with the result dropped; no operation was rewritten by the idealization, so there is nothing to preserve.
-/
import proofs.«149434_j38817914422094_1_alg».proof.Defs
import proofs.«149434_j38817914422094_1_alg».proof.Proof.Gen.Kernel
import proofs.«149434_j38817914422094_1_alg».proof.Proof.Gen.Kernel.Skeleton
import proofs.«149434_j38817914422094_1_alg».proof.Proof.Gen.Kernel.Launch
import proofs.«149434_j38817914422094_1_alg».proof.Proof.Gen.Kernel.Points
import proofs.«149434_j38817914422094_1_alg».proof.Proof.Gen.Kernel.Frame
import proofs.«149434_j38817914422094_1_alg».proof.Proof.Gen.KernelIdeal
import proofs.«149434_j38817914422094_1_alg».proof.Proof.Gen.KernelIdeal.Skeleton
import proofs.«149434_j38817914422094_1_alg».proof.Proof.Gen.KernelIdeal.Launch
import proofs.«149434_j38817914422094_1_alg».proof.Proof.Gen.KernelIdeal.Points
import proofs.«149434_j38817914422094_1_alg».proof.Proof.Gen.KernelIdeal.Frame
import proofs.«149434_j38817914422094_1_alg».proof.Proof.Gen.ReferenceIdeal
import proofs.«149434_j38817914422094_1_alg».proof.Proof.Gen.Pre_finite_inputs
import proofs.«149434_j38817914422094_1_alg».proof.Proof.Gen.KernelIdeal.Value
import proofs.«149434_j38817914422094_1_alg».proof.Proof.Gen.ReferenceIdeal.Run
import proofs.«149434_j38817914422094_1_alg».proof.Proof.Gen.ReferenceIdeal.Read
import proofs.«149434_j38817914422094_1_alg».proof.Proof.DistLaw
import proofs.«149434_j38817914422094_1_alg».proof.Proof.Finite
import proofs.«149434_j38817914422094_1_alg».proof.Proof.Blocks
import proofs.«149434_j38817914422094_1_alg».proof.Proof.RefEntry
import Idealize.ShloMosaic.Adequacy
import Idealize.ShloMosaic.Init

noncomputable section

namespace Cert.Proof

open Idealize.ShloMosaic Idealize.SL.Sem Idealize.ShloMosaic.ValueIdx

/-- Where every entry of x and w is a real number, the reference's result array is the kernel's result function of
    the same arrays: entry by entry the direct arrangement equals the expanded one. -/
theorem ref_eq_dist (x : FVec Ideal Cert.ReferenceIdeal.S2048x256 .f32) (w : FVec Ideal Cert.ReferenceIdeal.S256x512 .f32)
    (hx : ∀ i, ∃ r : ℝ, x i = (r : EReal)) (hw : ∀ i, ∃ r : ℝ, w i = (r : EReal)) :
    Cert.ReferenceIdeal.Read.val_main_v9 (F := Ideal) x w = Cert.KernelIdeal.Whole.dist x w := by
  funext i
  obtain ⟨p, q, rfl⟩ : ∃ (p : Fin 2048) (q : Fin 512), i = ix2 p q := ⟨i 0, i 1, eq_ix2 i⟩
  rw [Cert.ReferenceIdeal.Entry.ref_apply]
  exact Cert.DistLaw.directEntry_eq_expandedEntry x w hx hw p q

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the result array at the expanded arrangement of the clamped distance of the
    argument arrays: the kernel by its blocks, the reference because its direct arrangement equals the expanded one on
    finite inputs. -/
theorem algebraic : Cert.algebraic_KernelIdeal_ReferenceIdeal := by
  intro m ρ m' ρ' hpre hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hw⟩ := Cert.FiniteInputs.entries_real _ _ (hpre c)
  rw [Cert.ReferenceIdeal.Read.val_main_v9_eq, (hagree c).1, (hagree c).2]
  exact ref_eq_dist _ _ hx hw

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
